-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x16 : Shape := ⟨2, ![64, 16]⟩
abbrev S16x64 : Shape := ⟨2, ![16, 64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S16x64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  main_v23

def fn {F : FTy → Type} [FloatOps F] (main_arg0 : FVec F S1048576x64 .f32) (main_arg1 : FVec F S1048576x64 .f32) (main_arg2 : FVec F S1048576x64 .f32) (main_arg3 : FVec F S64x16 .f32) (main_arg4 : FVec F S16x64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  let main_v9 : FVec F S1048576x64 .f32 := Host.absf main_arg2
  let main_cst_2 : FVec F S_ .f32 := constant S_ .f32 0x7F800000#32
  let main_v10 : FVec F S1048576x64 .f32 := broadcastInDim S1048576x64 ![] bcast_S_S1048576x64 main_cst_2
  let main_v11 : IVec S1048576x64 1 := cmpf .olt main_v9 main_v10
  let main_c_3 : IVec S_ 1 := constantI S_ 1 1#1
  let main_v12 : IVec S_ 1 := (fun x v => Host.reduce IntOp.andi x v reducesTo_S1048576x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_v13 main_v16
-- ==== Kernel.lean ====
abbrev S1048576x64 : Shape := ⟨2, ![1048576, 64]⟩
abbrev S64x16 : Shape := ⟨2, ![64, 16]⟩
abbrev S16x64 : Shape := ⟨2, ![16, 64]⟩
abbrev S524288x128 : Shape := ⟨2, ![524288, 128]⟩
abbrev S_ : Shape := ⟨0, ![]⟩
abbrev S64x32 : Shape := ⟨2, ![64, 32]⟩
abbrev S128x32 : Shape := ⟨2, ![128, 32]⟩
abbrev S16x128 : Shape := ⟨2, ![16, 128]⟩
abbrev S32x128 : Shape := ⟨2, ![32, 128]⟩
abbrev S4096x128 : Shape := ⟨2, ![4096, 128]⟩
abbrev S4096x32 : Shape := ⟨2, ![4096, 32]⟩

abbrev nBuf : Space → Nat
  | .hbm => 24
  | .vmem => 12
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576x64, .f32⟩
  | .hbm, ⟨3, _⟩ => ⟨S64x16, .f32⟩
  | .hbm, ⟨4, _⟩ => ⟨S16x64, .f32⟩
  | .hbm, ⟨5, _⟩ => ⟨S524288x128, .f32⟩
  | .hbm, ⟨6, _⟩ => ⟨S524288x128, .f32⟩
  | .hbm, ⟨7, _⟩ => ⟨S524288x128, .f32⟩
  | .hbm, ⟨8, _⟩ => ⟨S_, .f32⟩
  | .hbm, ⟨9, _⟩ => ⟨S64x16, .f32⟩
  | .hbm, ⟨10, _⟩ => ⟨S64x32, .f32⟩
  | .hbm, ⟨11, _⟩ => ⟨S64x32, .f32⟩
  | .hbm, ⟨12, _⟩ => ⟨S128x32, .f32⟩
  | .hbm, ⟨13, _⟩ => ⟨S128x32, .bf16⟩
  | .hbm, ⟨14, _⟩ => ⟨S_, .f32⟩
  | .hbm, ⟨15, _⟩ => ⟨S16x64, .f32⟩
  | .hbm, ⟨16, _⟩ => ⟨S16x128, .f32⟩
  | .hbm, ⟨17, _⟩ => ⟨S16x128, .f32⟩
  | .hbm, ⟨18, _⟩ => ⟨S32x128, .f32⟩
  | .hbm, ⟨19, _⟩ => ⟨S32x128, .bf16⟩
  | .hbm, ⟨20, _⟩ => ⟨S524288x128, .f32⟩
  | .hbm, ⟨21, _⟩ => ⟨S524288x128, .f32⟩
  | .hbm, ⟨22, _⟩ => ⟨S1048576x64, .f32⟩
  | .hbm, ⟨23, _⟩ => ⟨S1048576x64, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x32, .bf16⟩
  | .local _ .vmem, ⟨7, _⟩ => ⟨S32x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1048576x64_S524288x128 : S1048576x64.ShapeCasts S524288x128
  bcast_S_S64x16 : S_.BroadcastsInDim S64x16 (![] : Fin 0 → Fin S64x16.rank)
  concatenates_S64x16_S64x16_S64x32_d1 : Shape.Concatenates [S64x16, S64x16] S64x32 1
  concatenates_S64x32_S64x32_S128x32_d0 : Shape.Concatenates [S64x32, S64x32] S128x32 0
  bitsLt_bf16_f32 : FTy.bits .bf16 < FTy.bits .f32
  bcast_S_S16x64 : S_.BroadcastsInDim S16x64 (![] : Fin 0 → Fin S16x64.rank)
  concatenates_S16x64_S16x64_S16x128_d1 : Shape.Concatenates [S16x64, S16x64] S16x128 1
  concatenates_S16x128_S16x128_S32x128_d0 : Shape.Concatenates [S16x128, S16x128] S32x128 0
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S524288x128_S1048576x64 : S524288x128.ShapeCasts S1048576x64
  dot_S4096x128_S128x32_S4096x32_1_0_0_1_n_n_wf : DotDims.WF S4096x128 S128x32 S4096x32 [1] [0] [0] [1] [] []
  dot_S4096x32_S32x128_S4096x128_1_0_0_1_n_n_wf : DotDims.WF S4096x32 S32x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S524288x128.size a
  hwx0_2 : ∀ i : grid0.Coords, EltTy.bits .f32 = 32 ∨ (Rect.block (s := S524288x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .bf16 = 32 ∨ (Rect.block (s := S128x32) S128x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .bf16 = 32 ∨ (Rect.block (s := S32x128) S32x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S524288x128.size a
  hwx0_5 : ∀ i : grid0.Coords, EltTy.bits .f32 = 32 ∨ (Rect.block (s := S524288x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S524288x128.size a
  hwx0_6 : ∀ i : grid0.Coords, EltTy.bits .f32 = 32 ∨ (Rect.block (s := S524288x128) S4096x128.size (cc0_transform_6 i) (hinb0_6 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x16 : Shape := ⟨2, ![64, 16]⟩
abbrev S16x64 : Shape := ⟨2, ![16, 64]⟩
abbrev S_ : Shape := ⟨0, ![]⟩
abbrev S1048576x16 : Shape := ⟨2, ![1048576, 16]⟩

abbrev nBuf : Space → Nat
  | .hbm => 48
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576x64, .f32⟩
  | .hbm, ⟨3, _⟩ => ⟨S64x16, .f32⟩
  | .hbm, ⟨4, _⟩ => ⟨S16x64, .f32⟩
  | .hbm, ⟨5, _⟩ => ⟨S_, .f32⟩
  | .hbm, ⟨6, _⟩ => ⟨S1048576x64, .f32⟩
  | .hbm, ⟨7, _⟩ => ⟨S1048576x64, .f32⟩
  | .hbm, ⟨8, _⟩ => ⟨S1048576x64, .f32⟩
  | .hbm, ⟨9, _⟩ => ⟨S1048576x16, .f32⟩
  | .hbm, ⟨10, _⟩ => ⟨S1048576x16, .f32⟩
  | .hbm, ⟨11, _⟩ => ⟨S1048576x64, .f32⟩
  | .hbm, ⟨12, _⟩ => ⟨S1048576x64, .f32⟩
  | .hbm, ⟨13, _⟩ => ⟨S1048576x64, .f32⟩
  | .hbm, ⟨14, _⟩ => ⟨S_, .f32⟩
  | .hbm, ⟨15, _⟩ => ⟨S1048576x64, .f32⟩
  | .hbm, ⟨16, _⟩ => ⟨S1048576x64, .f32⟩
  | .hbm, ⟨17, _⟩ => ⟨S1048576x64, .f32⟩
  | .hbm, ⟨18, _⟩ => ⟨S_, .f32⟩
  | .hbm, ⟨19, _⟩ => ⟨S1048576x64, .f32⟩
  | .hbm, ⟨20, _⟩ => ⟨S1048576x64, .f32⟩
  | .hbm, ⟨21, _⟩ => ⟨S1048576x64, .f32⟩
  | .hbm, ⟨22, _⟩ => ⟨S1048576x16, .f32⟩
  | .hbm, ⟨23, _⟩ => ⟨S1048576x16, .f32⟩
  | .hbm, ⟨24, _⟩ => ⟨S1048576x64, .f32⟩
  | .hbm, ⟨25, _⟩ => ⟨S1048576x64, .f32⟩
  | .hbm, ⟨26, _⟩ => ⟨S1048576x64, .f32⟩
  | .hbm, ⟨27, _⟩ => ⟨S_, .f32⟩
  | .hbm, ⟨28, _⟩ => ⟨S1048576x64, .f32⟩
  | .hbm, ⟨29, _⟩ => ⟨S1048576x64, .f32⟩
  | .hbm, ⟨30, _⟩ => ⟨S1048576x64, .f32⟩
  | .hbm, ⟨31, _⟩ => ⟨S_, .f32⟩
  | .hbm, ⟨32, _⟩ => ⟨S1048576x64, .f32⟩
  | .hbm, ⟨33, _⟩ => ⟨S1048576x64, .f32⟩
  | .hbm, ⟨34, _⟩ => ⟨S1048576x64, .f32⟩
  | .hbm, ⟨35, _⟩ => ⟨S1048576x16, .f32⟩
  | .hbm, ⟨36, _⟩ => ⟨S1048576x16, .f32⟩
  | .hbm, ⟨37, _⟩ => ⟨S1048576x64, .f32⟩
  | .hbm, ⟨38, _⟩ => ⟨S1048576x64, .f32⟩
  | .hbm, ⟨39, _⟩ => ⟨S1048576x64, .f32⟩
  | .hbm, ⟨40, _⟩ => ⟨S_, .f32⟩
  | .hbm, ⟨41, _⟩ => ⟨S1048576x64, .f32⟩
  | .hbm, ⟨42, _⟩ => ⟨S1048576x64, .f32⟩
  | .hbm, ⟨43, _⟩ => ⟨S1048576x64, .f32⟩
  | .hbm, ⟨44, _⟩ => ⟨S_, .f32⟩
  | .hbm, ⟨45, _⟩ => ⟨S1048576x64, .f32⟩
  | .hbm, ⟨46, _⟩ => ⟨S1048576x64, .f32⟩
  | .hbm, ⟨47, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S_S1048576x64 : S_.BroadcastsInDim S1048576x64 (![] : Fin 0 → Fin S1048576x64.rank)
  dot_S1048576x64_S64x16_S1048576x16_1_0_0_1_n_n_wf : DotDims.WF S1048576x64 S64x16 S1048576x16 [1] [0] [0] [1] [] []
  dot_S1048576x16_S16x64_S1048576x64_1_0_0_1_n_n_wf : DotDims.WF S1048576x16 S16x64 S1048576x64 [1] [0] [0] [1] [] []

variable [Facts₀]

def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x16_S16x64_S1048576x64_1_0_0_1_n_n : DotDims S1048576x16 S16x64 S1048576x64 where
  lhsContracting := [1]
  rhsContracting := [0]
  lhsNonContracting := [0]
  rhsNonContracting := [1]
  lhsBatch := []
  rhsBatch := []
  wf := dot_S1048576x16_S16x64_S1048576x64_1_0_0_1_n_n_wf

class Facts : Prop extends Facts₀ where

variable [Facts]
-- ==== Proof.Rows.lean ====
/-
  One row of the integrator, on the extended reals.

  A row `a` of width `n` is pushed through a low-rank quadratic form: `h c = ∑ j, a j * U j c` (width `k`), squared
  entrywise, then `∑ c, (h c * h c) * W c d`.  A velocity step is `a d + s * (-(form a d) + f d)`; three of them
  give the final velocity, and the final position adds the four weighted velocities to `x`.

  Two rows of width 64 laid side by side form one row of width 128.  With `U` and `W` placed twice on the diagonal
  of a 128 × 32 and a 32 × 128 matrix (zero elsewhere), the form of the wide row is, half by half, the form of each
  narrow row: a product with a zero entry is zero on the extended reals, infinite factors included, so the sum over the
  wide axis is the sum over the half that meets the diagonal block.  Nothing here needs the entries to be finite.
-/
import Idealize.ShloMosaic.PureOps.Ideal
import Mathlib.Algebra.BigOperators.Fin

noncomputable section

namespace Cert.Rows

open Finset

/-- The quadratic form of a row: `∑ c, (h c * h c) * W c d` with `h c = ∑ j, a j * U j c`. -/
def form {n k : ℕ} (U : Fin n → Fin k → EReal) (W : Fin k → Fin n → EReal) (a : Fin n → EReal) (d : Fin n) : EReal :=
  ∑ c : Fin k, ((∑ j : Fin n, a j * U j c) * (∑ j : Fin n, a j * U j c)) * W c d

/-- One velocity step of size `s` under the force row `f`. -/
def step {n k : ℕ} (s : EReal) (U : Fin n → Fin k → EReal) (W : Fin k → Fin n → EReal) (f a : Fin n → EReal)
    (d : Fin n) : EReal :=
  a d + s * (-(form U W a d) + f d)

/-- The velocity after the three steps (sizes `s₁`, `s₂`, `s₁`). -/
def vel3 {n k : ℕ} (s₁ s₂ : EReal) (U : Fin n → Fin k → EReal) (W : Fin k → Fin n → EReal) (f v : Fin n → EReal) :
    Fin n → EReal :=
  step s₁ U W f (step s₂ U W f (step s₁ U W f v))

/-- The final position: `x` and the four weighted velocities, added left to right. -/
def pos {n k : ℕ} (c₁ c₂ s₁ s₂ : EReal) (U : Fin n → Fin k → EReal) (W : Fin k → Fin n → EReal)
    (f x v : Fin n → EReal) (d : Fin n) : EReal :=
  (((x d + c₁ * v d) + c₂ * step s₁ U W f v d) + c₂ * step s₂ U W f (step s₁ U W f v) d)
    + c₁ * vel3 s₁ s₂ U W f v d

/-- The same sum with the four velocity terms gathered first. -/
theorem pos_gathered {n k : ℕ} (c₁ c₂ s₁ s₂ : EReal) (U : Fin n → Fin k → EReal) (W : Fin k → Fin n → EReal)
    (f x v : Fin n → EReal) (d : Fin n) :
    x d + (((c₁ * v d + c₂ * step s₁ U W f v d) + c₂ * step s₂ U W f (step s₁ U W f v) d)
      + c₁ * vel3 s₁ s₂ U W f v d) = pos c₁ c₂ s₁ s₂ U W f x v d := by
  unfold pos
  simp only [add_assoc]

/-! ## Two narrow rows side by side -/

/-- Lane `64 b + d` of a wide row: position `d` of its half `b`. -/
def lane (b : Fin 2) (d : Fin 64) : Fin 128 := ⟨64 * b.val + d.val, by have := b.isLt; have := d.isLt; omega⟩

/-- Column `16 b + k` of the doubled `U`: column `k` of its diagonal block `b`. -/
def col (b : Fin 2) (k : Fin 16) : Fin 32 := ⟨16 * b.val + k.val, by have := b.isLt; have := k.isLt; omega⟩

theorem lane_val (b : Fin 2) (d : Fin 64) : (lane b d).val = 64 * b.val + d.val := rfl
theorem col_val (b : Fin 2) (k : Fin 16) : (col b k).val = 16 * b.val + k.val := rfl

/-- Half `b` of a row of width 128. -/
def half (b : Fin 2) (a : Fin 128 → EReal) : Fin 64 → EReal := fun j => a (lane b j)

/-- `U` twice on the diagonal of a 128 × 32 matrix, zero elsewhere. -/
def diagU (U : Fin 64 → Fin 16 → EReal) : Fin 128 → Fin 32 → EReal := fun l c =>
  if l.val / 64 = c.val / 16 then U ⟨l.val % 64, Nat.mod_lt _ (by norm_num)⟩ ⟨c.val % 16, Nat.mod_lt _ (by norm_num)⟩ else 0

/-- `W` twice on the diagonal of a 32 × 128 matrix, zero elsewhere. -/
def diagW (W : Fin 16 → Fin 64 → EReal) : Fin 32 → Fin 128 → EReal := fun c l =>
  if c.val / 16 = l.val / 64 then W ⟨c.val % 16, Nat.mod_lt _ (by norm_num)⟩ ⟨l.val % 64, Nat.mod_lt _ (by norm_num)⟩ else 0

/-- A sum over 128 positions whose terms vanish outside half `b` is the sum over that half. -/
theorem sum_half128 (g : Fin 128 → EReal) (b : Fin 2) (hz : ∀ l : Fin 128, l.val / 64 ≠ b.val → g l = 0) :
    ∑ l, g l = ∑ j : Fin 64, g (lane b j) := by
  refine (Fin.sum_univ_add (fun i : Fin (64 + 64) => g i)).trans ?_
  obtain ⟨bv, hb⟩ := b
  interval_cases bv
  · rw [Finset.sum_eq_zero (s := univ) (f := fun i : Fin 64 => g (Fin.natAdd 64 i))
      (fun i _ => hz _ (by have := i.isLt; simp only [Fin.natAdd]; omega)), add_zero]
    exact Finset.sum_congr rfl fun j _ => congrArg g (Fin.ext (by simp [lane]))
  · rw [Finset.sum_eq_zero (s := univ) (f := fun i : Fin 64 => g (Fin.castAdd 64 i))
      (fun i _ => hz _ (by have := i.isLt; simp only [Fin.castAdd, Fin.castLE]; omega)), zero_add]
    exact Finset.sum_congr rfl fun j _ => congrArg g (Fin.ext (by simp [lane]; omega))

/-- A sum over 32 positions whose terms vanish outside half `b` is the sum over that half. -/
theorem sum_half32 (g : Fin 32 → EReal) (b : Fin 2) (hz : ∀ c : Fin 32, c.val / 16 ≠ b.val → g c = 0) :
    ∑ c, g c = ∑ k : Fin 16, g (col b k) := by
  refine (Fin.sum_univ_add (fun i : Fin (16 + 16) => g i)).trans ?_
  obtain ⟨bv, hb⟩ := b
  interval_cases bv
  · rw [Finset.sum_eq_zero (s := univ) (f := fun i : Fin 16 => g (Fin.natAdd 16 i))
      (fun i _ => hz _ (by have := i.isLt; simp only [Fin.natAdd]; omega)), add_zero]
    exact Finset.sum_congr rfl fun j _ => congrArg g (Fin.ext (by simp [col]))
  · rw [Finset.sum_eq_zero (s := univ) (f := fun i : Fin 16 => g (Fin.castAdd 16 i))
      (fun i _ => hz _ (by have := i.isLt; simp only [Fin.castAdd, Fin.castLE]; omega)), zero_add]
    exact Finset.sum_congr rfl fun j _ => congrArg g (Fin.ext (by simp [col]; omega))

/-- The wide row against the doubled `U`, at column `16 b + k`: half `b` of the row against `U`'s column `k`. -/
theorem sum_diagU (U : Fin 64 → Fin 16 → EReal) (a : Fin 128 → EReal) (b : Fin 2) (k : Fin 16) :
    ∑ l : Fin 128, a l * diagU U l (col b k) = ∑ j : Fin 64, half b a j * U j k := by
  have hb := b.isLt; have hk := k.isLt
  rw [sum_half128 _ b (fun l hl => by
    unfold diagU
    rw [if_neg (by simp only [col_val]; omega), mul_zero])]
  refine Finset.sum_congr rfl fun j _ => ?_
  have hj := j.isLt
  unfold diagU half
  rw [if_pos (by simp only [lane_val, col_val]; omega)]
  congr 2 <;> exact Fin.ext (by simp only [lane_val, col_val]; omega)

/-- The form of the wide row against the doubled matrices, at lane `64 b + d`: the form of half `b` at `d`. -/
theorem form_diag (U : Fin 64 → Fin 16 → EReal) (W : Fin 16 → Fin 64 → EReal) (a : Fin 128 → EReal) (b : Fin 2)
    (d : Fin 64) : form (diagU U) (diagW W) a (lane b d) = form U W (half b a) d := by
  have hb := b.isLt; have hd := d.isLt
  unfold form
  rw [sum_half32 _ b (fun c hc => by
    unfold diagW
    rw [if_neg (by simp only [lane_val]; omega), mul_zero])]
  refine Finset.sum_congr rfl fun k _ => ?_
  have hk := k.isLt
  rw [sum_diagU U a b k]
  unfold diagW
  rw [if_pos (by simp only [lane_val, col_val]; omega)]
  congr 2 <;> exact Fin.ext (by simp only [lane_val, col_val]; omega)

/-- Half `b` of a step of the wide row is the step of half `b`. -/
theorem half_step (s : EReal) (U : Fin 64 → Fin 16 → EReal) (W : Fin 16 → Fin 64 → EReal) (f a : Fin 128 → EReal)
    (b : Fin 2) : half b (step s (diagU U) (diagW W) f a) = step s U W (half b f) (half b a) := by
  funext d
  show step s (diagU U) (diagW W) f a (lane b d) = _
  unfold step
  rw [form_diag]
  rfl

/-- Half `b` of the wide row's final velocity is the final velocity of half `b`. -/
theorem half_vel3 (s₁ s₂ : EReal) (U : Fin 64 → Fin 16 → EReal) (W : Fin 16 → Fin 64 → EReal) (f v : Fin 128 → EReal)
    (b : Fin 2) : half b (vel3 s₁ s₂ (diagU U) (diagW W) f v) = vel3 s₁ s₂ U W (half b f) (half b v) := by
  unfold vel3
  rw [half_step, half_step, half_step]

/-- Half `b` of the wide row's final position is the final position of half `b`. -/
theorem half_pos (c₁ c₂ s₁ s₂ : EReal) (U : Fin 64 → Fin 16 → EReal) (W : Fin 16 → Fin 64 → EReal)
    (f x v : Fin 128 → EReal) (b : Fin 2) :
    half b (pos c₁ c₂ s₁ s₂ (diagU U) (diagW W) f x v) = pos c₁ c₂ s₁ s₂ U W (half b f) (half b x) (half b v) := by
  funext d
  have e1 : step s₁ (diagU U) (diagW W) f v (lane b d) = step s₁ U W (half b f) (half b v) d :=
    congrFun (half_step s₁ U W f v b) d
  have e2 : step s₂ (diagU U) (diagW W) f (step s₁ (diagU U) (diagW W) f v) (lane b d)
      = step s₂ U W (half b f) (step s₁ U W (half b f) (half b v)) d := by
    have h := congrFun (half_step s₂ U W f (step s₁ (diagU U) (diagW W) f v) b) d
    exact h.trans (by rw [half_step])
  have e3 : vel3 s₁ s₂ (diagU U) (diagW W) f v (lane b d) = vel3 s₁ s₂ U W (half b f) (half b v) d :=
    congrFun (half_vel3 s₁ s₂ U W f v b) d
  show pos c₁ c₂ s₁ s₂ (diagU U) (diagW W) f x v (lane b d) = _
  unfold pos
  rw [e1, e2, e3]
  rfl

end Cert.Rows

end
-- ==== Proof.Spec.lean ====
/-
  What both programs compute, row by row.

  The arrays `x`, `v`, `force` have 1048576 rows of width 64; `U` is 64 × 16 and `W` is 16 × 64.  Row `r` of each
  result depends on row `r` of the three arrays only: the final velocity is three velocity steps of the row, the
  final position the row of `x` plus the four weighted velocities (`Cert.Rows`).  The step sizes and weights are the
  four single-precision constants both programs spell with the same words; at the ideal values each is whatever number
  its word denotes, and nothing below looks inside them.
-/
import proofs.«423635_j2370821948213_3_alg».proof.Proof.Rows
import Idealize.ShloMosaic.Lib.ValueIdx

noncomputable section

namespace Cert.Spec

open Idealize.ShloMosaic Idealize.ShloMosaic.ValueIdx

/-- Row `r` of a two-axis array. -/
def row {R C : ℕ} (A : (⟨2, ![R, C]⟩ : Shape).Idx → EReal) (r : Fin R) : Fin C → EReal := fun d => A (ix2 r d)

/-- A two-axis array as a matrix. -/
def mat {R C : ℕ} (x : (⟨2, ![R, C]⟩ : Shape).Idx → EReal) : Fin R → Fin C → EReal := fun j k => x (ix2 j k)

/-- The first and third velocity step's size. -/
def s₁ : EReal := Ideal.ofBits .f32 0x3C5D61BD#32
/-- The second velocity step's size. -/
def s₂ : EReal := Ideal.ofBits .f32 0xBC8B7638#32
/-- The weight of the first and last velocity in the position. -/
def c₁ : EReal := Ideal.ofBits .f32 0x3BDD61BD#32
/-- The weight of the two middle velocities in the position. -/
def c₂ : EReal := Ideal.ofBits .f32 0xBAE62ACA#32

/-- The final velocity array. -/
def velArr (v f : (⟨2, ![1048576, 64]⟩ : Shape).Idx → EReal) (U : (⟨2, ![64, 16]⟩ : Shape).Idx → EReal)
    (W : (⟨2, ![16, 64]⟩ : Shape).Idx → EReal) : (⟨2, ![1048576, 64]⟩ : Shape).Idx → EReal :=
  fun i => Rows.vel3 s₁ s₂ (mat U) (mat W) (row f (i 0)) (row v (i 0)) (i 1)

/-- The final position array. -/
def posArr (x v f : (⟨2, ![1048576, 64]⟩ : Shape).Idx → EReal) (U : (⟨2, ![64, 16]⟩ : Shape).Idx → EReal)
    (W : (⟨2, ![16, 64]⟩ : Shape).Idx → EReal) : (⟨2, ![1048576, 64]⟩ : Shape).Idx → EReal :=
  fun i => Rows.pos c₁ c₂ s₁ s₂ (mat U) (mat W) (row f (i 0)) (row x (i 0)) (row v (i 0)) (i 1)

end Cert.Spec

end
-- ==== Proof.RefValue.lean ====
/-
  The reference computes the row-wise specification.

  Its quadratic form is two host matrix products around an entrywise square; read at row `r`, column `d` it is
  `Cert.Rows.form` of row `r`.  A velocity update of the whole array is therefore, row by row, one step of the row,
  and the two results are the final velocity and the final position of `Cert.Spec`.
-/
import proofs.«423635_j2370821948213_3_alg».proof.Proof.Gen.ReferenceIdeal.Read
import proofs.«423635_j2370821948213_3_alg».proof.Proof.Spec

noncomputable section

namespace Cert.RefValue

open Cert.ReferenceIdeal Cert.ReferenceIdeal.Gen Cert.ReferenceIdeal.Read Idealize.ShloMosaic Idealize.ShloMosaic.ValueIdx
open Cert.Spec

/-- The reference's quadratic form of an array `tv`, at row `r` and column `d`: the form of row `r`. -/
theorem form_apply (tv : FVec Ideal S1048576x64 .f32) (x3 : FVec Ideal S64x16 .f32) (x4 : FVec Ideal S16x64 .f32)
    (r : Fin 1048576) (d : Fin 64) :
    val_main_v5 (F := Ideal) tv x3 x4 (ix2 r d) = Rows.form (mat x3) (mat x4) (row tv r) d := by
  rw [val_main_v5_apply]
  unfold Rows.form
  refine Finset.sum_congr rfl fun k _ => ?_
  rw [val_main_v4_apply, val_main_v3_apply]
  have e1 : ∀ j : Fin 64, lidx_main_v3 (lidx_main_v5 (ix2 r d) k) j = ix2 r j := fun j =>
    funext fun a => Fin.ext (by match a with | ⟨0, _⟩ => rfl | ⟨1, _⟩ => rfl)
  have e2 : ∀ j : Fin 64, ridx_main_v3 (lidx_main_v5 (ix2 r d) k) j = ix2 j k := fun j =>
    funext fun a => Fin.ext (by match a with | ⟨0, _⟩ => rfl | ⟨1, _⟩ => rfl)
  have e3 : ridx_main_v5 (ix2 r d) k = ix2 k d :=
    funext fun a => Fin.ext (by match a with | ⟨0, _⟩ => rfl | ⟨1, _⟩ => rfl)
  simp only [e1, e2, e3]
  rfl

/-- One velocity update of a whole array: `tv + s * (-(form tv) + f)`, as the reference spells it. -/
def stepArr (s : BitVec 32) (tv f : FVec Ideal S1048576x64 .f32) (x3 : FVec Ideal S64x16 .f32)
    (x4 : FVec Ideal S16x64 .f32) : FVec Ideal S1048576x64 .f32 :=
  addf tv (mulf (broadcastInDim S1048576x64 ![] bcast_S_S1048576x64 (constant S_ .f32 s))
    (addf (Host.negf (val_main_v5 (F := Ideal) tv x3 x4)) f))

/-- The update at row `r`, column `d` is one step of row `r`. -/
theorem step_apply (s : BitVec 32) (tv f : FVec Ideal S1048576x64 .f32) (x3 : FVec Ideal S64x16 .f32)
    (x4 : FVec Ideal S16x64 .f32) (r : Fin 1048576) (d : Fin 64) :
    stepArr s tv f x3 x4 (ix2 r d) = Rows.step (Ideal.ofBits .f32 s) (mat x3) (mat x4) (row f r) (row tv r) d := by
  unfold stepArr Rows.step
  rw [← form_apply]
  rfl

/-- Row `r` of the update is one step of row `r`. -/
theorem row_step (s : BitVec 32) (tv f : FVec Ideal S1048576x64 .f32) (x3 : FVec Ideal S64x16 .f32)
    (x4 : FVec Ideal S16x64 .f32) (r : Fin 1048576) :
    row (stepArr s tv f x3 x4) r = Rows.step (Ideal.ofBits .f32 s) (mat x3) (mat x4) (row f r) (row tv r) :=
  funext fun d => step_apply s tv f x3 x4 r d

theorem v10_eq (x1 x2 : FVec Ideal S1048576x64 .f32) (x3 : FVec Ideal S64x16 .f32) (x4 : FVec Ideal S16x64 .f32) :
    val_main_v10 (F := Ideal) x1 x2 x3 x4 = stepArr 0x3C5D61BD#32 x1 x2 x3 x4 := rfl
theorem v21_eq (x1 x2 : FVec Ideal S1048576x64 .f32) (x3 : FVec Ideal S64x16 .f32) (x4 : FVec Ideal S16x64 .f32) :
    val_main_v21 (F := Ideal) x1 x2 x3 x4 = stepArr 0xBC8B7638#32 (stepArr 0x3C5D61BD#32 x1 x2 x3 x4) x2 x3 x4 := rfl
theorem v32_eq (x1 x2 : FVec Ideal S1048576x64 .f32) (x3 : FVec Ideal S64x16 .f32) (x4 : FVec Ideal S16x64 .f32) :
    val_main_v32 (F := Ideal) x1 x2 x3 x4
      = stepArr 0x3C5D61BD#32 (stepArr 0xBC8B7638#32 (stepArr 0x3C5D61BD#32 x1 x2 x3 x4) x2 x3 x4) x2 x3 x4 := rfl

/-- The reference's second result is the final velocity array. -/
theorem vel_eq (x1 x2 : FVec Ideal S1048576x64 .f32) (x3 : FVec Ideal S64x16 .f32) (x4 : FVec Ideal S16x64 .f32) :
    val_main_v32 (F := Ideal) x1 x2 x3 x4 = velArr x1 x2 x3 x4 := by
  funext i
  obtain ⟨r, d, rfl⟩ : ∃ (r : Fin 1048576) (d : Fin 64), i = ix2 r d := ⟨i 0, i 1, eq_ix2 i⟩
  rw [v32_eq, step_apply, row_step, row_step]
  rfl

/-- The reference's first result is the final position array. -/
theorem pos_eq (x0 x1 x2 : FVec Ideal S1048576x64 .f32) (x3 : FVec Ideal S64x16 .f32) (x4 : FVec Ideal S16x64 .f32) :
    val_main_v35 (F := Ideal) x0 x1 x2 x3 x4 = posArr x0 x1 x2 x3 x4 := by
  funext i
  obtain ⟨r, d, rfl⟩ : ∃ (r : Fin 1048576) (d : Fin 64), i = ix2 r d := ⟨i 0, i 1, eq_ix2 i⟩
  have h10 := step_apply 0x3C5D61BD#32 x1 x2 x3 x4 r d
  have h21 := step_apply 0xBC8B7638#32 (stepArr 0x3C5D61BD#32 x1 x2 x3 x4) x2 x3 x4 r d
  have h32 := step_apply 0x3C5D61BD#32 (stepArr 0xBC8B7638#32 (stepArr 0x3C5D61BD#32 x1 x2 x3 x4) x2 x3 x4) x2 x3 x4 r d
  rw [row_step] at h21
  rw [row_step, row_step] at h32
  rw [val_main_v35_apply, val_main_v34_apply, val_main_v24_apply, val_main_v23_apply, val_main_v13_apply,
    val_main_v12_apply, val_main_v2_apply, val_main_v1_apply, v10_eq, v21_eq, v32_eq, h10, h21, h32]
  rfl

end Cert.RefValue

end
-- ==== Proof.KernelBody.lean ====
/-
  The kernel's body, row by row.

  A block holds 4096 wide rows (two narrow rows side by side each).  The body's quadratic form is two matrix products
  into zero accumulators around an entrywise square, the changes of float format between them being the identity at the
  ideal values; read at row `p`, lane `l` it is `Cert.Rows.form` of row `p` of the block against the two small
  operands as matrices.  The body spells the negation of the form as `0 - form`, which on the extended reals is
  `-form`.  So each of the three velocity updates is one step of the row, the second stored value is the final
  velocity of the row, and the first is the row's final position with its four velocity terms gathered before `x` is
  added — the same sum, addition being associative.
-/
import proofs.«423635_j2370821948213_3_alg».proof.Proof.Gen.KernelIdeal.Skeleton
import proofs.«423635_j2370821948213_3_alg».proof.Proof.Spec
import Idealize.ShloMosaic.Lib.Pipeline.Value
import Idealize.ShloMosaic.Lib.ValueIdx
import Idealize.ShloMosaic.PureOps.Ideal.Laws

noncomputable section

namespace Cert.KernelBody

open Cert.KernelIdeal Cert.KernelIdeal.Gen Idealize.ShloMosaic Idealize.ShloMosaic.ValueIdx
open Cert.Spec

/-! ## The two matrix products at an index -/

theorem lhsU_0 (i : S4096x32.Idx) (q : dot_S4096x128_S128x32_S4096x32_1_0_0_1_n_n.contr.Idx) :
    (dot_S4096x128_S128x32_S4096x32_1_0_0_1_n_n.lhsIdx i q 0).val = (i 0).val := by
  unfold DotDims.lhsIdx
  rw [dif_neg (show ¬(0 : Fin S4096x128.rank) ∈ dot_S4096x128_S128x32_S4096x32_1_0_0_1_n_n.lhsBatch by decide), dif_pos (show (0 : Fin S4096x128.rank) ∈ dot_S4096x128_S128x32_S4096x32_1_0_0_1_n_n.lhsNonContracting by decide)]
  rfl
theorem lhsU_1 (i : S4096x32.Idx) (q : dot_S4096x128_S128x32_S4096x32_1_0_0_1_n_n.contr.Idx) :
    (dot_S4096x128_S128x32_S4096x32_1_0_0_1_n_n.lhsIdx i q 1).val = (q ⟨0, by decide⟩).val :=
  dot_S4096x128_S128x32_S4096x32_1_0_0_1_n_n.lhsIdx_val_of_single rfl i q
theorem rhsU_0 (i : S4096x32.Idx) (q : dot_S4096x128_S128x32_S4096x32_1_0_0_1_n_n.contr.Idx) :
    (dot_S4096x128_S128x32_S4096x32_1_0_0_1_n_n.rhsIdx i q 0).val = (q ⟨0, by decide⟩).val :=
  dot_S4096x128_S128x32_S4096x32_1_0_0_1_n_n.rhsIdx_val_of_single rfl i q
theorem rhsU_1 (i : S4096x32.Idx) (q : dot_S4096x128_S128x32_S4096x32_1_0_0_1_n_n.contr.Idx) :
    (dot_S4096x128_S128x32_S4096x32_1_0_0_1_n_n.rhsIdx i q 1).val = (i 1).val := by
  unfold DotDims.rhsIdx
  rw [dif_neg (show ¬(1 : Fin S128x32.rank) ∈ dot_S4096x128_S128x32_S4096x32_1_0_0_1_n_n.rhsBatch by decide), dif_pos (show (1 : Fin S128x32.rank) ∈ dot_S4096x128_S128x32_S4096x32_1_0_0_1_n_n.rhsNonContracting by decide)]
  rfl

/-- The first product, into the zero accumulator, at row `p` and column `c`: the row against column `c`. -/
theorem matmulU_apply (a : FVec Ideal S4096x128 .bf16) (u : FVec Ideal S128x32 .bf16) (p : Fin 4096) (c : Fin 32) :
    matmul dot_S4096x128_S128x32_S4096x32_1_0_0_1_n_n none a u (constant S4096x32 .f32 0x00000000#32) (ix2 p c)
      = ∑ l : Fin 128, a (ix2 p l) * u (ix2 l c) := by
  simp only [matmul]
  rw [Ideal.matmul_constant_zero_apply, ← Equiv.sum_comp (ValueIdx.contrEquiv1 dot_S4096x128_S128x32_S4096x32_1_0_0_1_n_n 128 rfl rfl).symm]
  refine Finset.sum_congr rfl fun k _ => ?_
  have hk := ValueIdx.contrEquiv1_symm_val dot_S4096x128_S128x32_S4096x32_1_0_0_1_n_n 128 rfl rfl k
  have el : dot_S4096x128_S128x32_S4096x32_1_0_0_1_n_n.lhsIdx (ix2 p c) ((ValueIdx.contrEquiv1 dot_S4096x128_S128x32_S4096x32_1_0_0_1_n_n 128 rfl rfl).symm k) = ix2 p k := funext fun a => Fin.ext (by
    match a with
    | ⟨0, _⟩ => exact lhsU_0 _ _
    | ⟨1, _⟩ => exact (lhsU_1 _ _).trans hk)
  have er : dot_S4096x128_S128x32_S4096x32_1_0_0_1_n_n.rhsIdx (ix2 p c) ((ValueIdx.contrEquiv1 dot_S4096x128_S128x32_S4096x32_1_0_0_1_n_n 128 rfl rfl).symm k) = ix2 k c := funext fun a => Fin.ext (by
    match a with
    | ⟨0, _⟩ => exact (rhsU_0 _ _).trans hk
    | ⟨1, _⟩ => exact rhsU_1 _ _)
  rw [el, er]

theorem lhsW_0 (i : S4096x128.Idx) (q : dot_S4096x32_S32x128_S4096x128_1_0_0_1_n_n.contr.Idx) :
    (dot_S4096x32_S32x128_S4096x128_1_0_0_1_n_n.lhsIdx i q 0).val = (i 0).val := by
  unfold DotDims.lhsIdx
  rw [dif_neg (show ¬(0 : Fin S4096x32.rank) ∈ dot_S4096x32_S32x128_S4096x128_1_0_0_1_n_n.lhsBatch by decide), dif_pos (show (0 : Fin S4096x32.rank) ∈ dot_S4096x32_S32x128_S4096x128_1_0_0_1_n_n.lhsNonContracting by decide)]
  rfl
theorem lhsW_1 (i : S4096x128.Idx) (q : dot_S4096x32_S32x128_S4096x128_1_0_0_1_n_n.contr.Idx) :
    (dot_S4096x32_S32x128_S4096x128_1_0_0_1_n_n.lhsIdx i q 1).val = (q ⟨0, by decide⟩).val :=
  dot_S4096x32_S32x128_S4096x128_1_0_0_1_n_n.lhsIdx_val_of_single rfl i q
theorem rhsW_0 (i : S4096x128.Idx) (q : dot_S4096x32_S32x128_S4096x128_1_0_0_1_n_n.contr.Idx) :
    (dot_S4096x32_S32x128_S4096x128_1_0_0_1_n_n.rhsIdx i q 0).val = (q ⟨0, by decide⟩).val :=
  dot_S4096x32_S32x128_S4096x128_1_0_0_1_n_n.rhsIdx_val_of_single rfl i q
theorem rhsW_1 (i : S4096x128.Idx) (q : dot_S4096x32_S32x128_S4096x128_1_0_0_1_n_n.contr.Idx) :
    (dot_S4096x32_S32x128_S4096x128_1_0_0_1_n_n.rhsIdx i q 1).val = (i 1).val := by
  unfold DotDims.rhsIdx
  rw [dif_neg (show ¬(1 : Fin S32x128.rank) ∈ dot_S4096x32_S32x128_S4096x128_1_0_0_1_n_n.rhsBatch by decide), dif_pos (show (1 : Fin S32x128.rank) ∈ dot_S4096x32_S32x128_S4096x128_1_0_0_1_n_n.rhsNonContracting by decide)]
  rfl

/-- The second product, into the zero accumulator, at row `p` and lane `l`: the row against column `l`. -/
theorem matmulW_apply (a : FVec Ideal S4096x32 .bf16) (w : FVec Ideal S32x128 .bf16) (p : Fin 4096) (l : Fin 128) :
    matmul dot_S4096x32_S32x128_S4096x128_1_0_0_1_n_n none a w (constant S4096x128 .f32 0x00000000#32) (ix2 p l)
      = ∑ c : Fin 32, a (ix2 p c) * w (ix2 c l) := by
  simp only [matmul]
  rw [Ideal.matmul_constant_zero_apply, ← Equiv.sum_comp (ValueIdx.contrEquiv1 dot_S4096x32_S32x128_S4096x128_1_0_0_1_n_n 32 rfl rfl).symm]
  refine Finset.sum_congr rfl fun k _ => ?_
  have hk := ValueIdx.contrEquiv1_symm_val dot_S4096x32_S32x128_S4096x128_1_0_0_1_n_n 32 rfl rfl k
  have el : dot_S4096x32_S32x128_S4096x128_1_0_0_1_n_n.lhsIdx (ix2 p l) ((ValueIdx.contrEquiv1 dot_S4096x32_S32x128_S4096x128_1_0_0_1_n_n 32 rfl rfl).symm k) = ix2 p k := funext fun a => Fin.ext (by
    match a with
    | ⟨0, _⟩ => exact lhsW_0 _ _
    | ⟨1, _⟩ => exact (lhsW_1 _ _).trans hk)
  have er : dot_S4096x32_S32x128_S4096x128_1_0_0_1_n_n.rhsIdx (ix2 p l) ((ValueIdx.contrEquiv1 dot_S4096x32_S32x128_S4096x128_1_0_0_1_n_n 32 rfl rfl).symm k) = ix2 k l := funext fun a => Fin.ext (by
    match a with
    | ⟨0, _⟩ => exact (rhsW_0 _ _).trans hk
    | ⟨1, _⟩ => exact rhsW_1 _ _)
  rw [el, er]

/-! ## The form and the step of a block -/

/-- The body's quadratic form of a block `tv` against the two small operands. -/
def formVec (tv : FVec Ideal S4096x128 .f32) (u : FVec Ideal S128x32 .bf16) (w : FVec Ideal S32x128 .bf16) :
    FVec Ideal S4096x128 .f32 :=
  matmul dot_S4096x32_S32x128_S4096x128_1_0_0_1_n_n none
    (truncf .bf16 (mulf
      (matmul dot_S4096x128_S128x32_S4096x32_1_0_0_1_n_n none (truncf .bf16 tv bitsLt_bf16_f32) u (constant S4096x32 .f32 0x00000000#32))
      (matmul dot_S4096x128_S128x32_S4096x32_1_0_0_1_n_n none (truncf .bf16 tv bitsLt_bf16_f32) u (constant S4096x32 .f32 0x00000000#32)))
      bitsLt_bf16_f32)
    w (constant S4096x128 .f32 0x00000000#32)

/-- At row `p`, lane `l` it is the form of row `p`. -/
theorem formVec_apply (tv : FVec Ideal S4096x128 .f32) (u : FVec Ideal S128x32 .bf16) (w : FVec Ideal S32x128 .bf16)
    (p : Fin 4096) (l : Fin 128) :
    formVec tv u w (ix2 p l) = Rows.form (mat u) (mat w) (row tv p) l := by
  unfold formVec Rows.form
  rw [matmulW_apply]
  refine Finset.sum_congr rfl fun c _ => ?_
  show (matmul dot_S4096x128_S128x32_S4096x32_1_0_0_1_n_n none (truncf .bf16 tv bitsLt_bf16_f32) u (constant S4096x32 .f32 0x00000000#32) (ix2 p c)
      * matmul dot_S4096x128_S128x32_S4096x32_1_0_0_1_n_n none (truncf .bf16 tv bitsLt_bf16_f32) u (constant S4096x32 .f32 0x00000000#32) (ix2 p c))
      * w (ix2 c l) = _
  rw [matmulU_apply]
  rfl

/-- One velocity update of a block: `tv + s * ((0 - form tv) + f)`, as the body spells it. -/
def stepVec (s : BitVec 32) (tv f : FVec Ideal S4096x128 .f32) (u : FVec Ideal S128x32 .bf16)
    (w : FVec Ideal S32x128 .bf16) : FVec Ideal S4096x128 .f32 :=
  addf tv (mulf (broadcast S4096x128 (Scalar.ofBits (F := Ideal) .f32 s))
    (addf (subf (broadcast S4096x128 (Scalar.ofBits (F := Ideal) .f32 0x00000000#32)) (formVec tv u w)) f))

/-- At row `p`, lane `l` it is one step of row `p`. -/
theorem stepVec_apply (s : BitVec 32) (tv f : FVec Ideal S4096x128 .f32) (u : FVec Ideal S128x32 .bf16)
    (w : FVec Ideal S32x128 .bf16) (p : Fin 4096) (l : Fin 128) :
    stepVec s tv f u w (ix2 p l) = Rows.step (Ideal.ofBits .f32 s) (mat u) (mat w) (row f p) (row tv p) l := by
  show tv (ix2 p l) + Ideal.ofBits .f32 s * ((Ideal.ofBits .f32 0x00000000#32 - formVec tv u w (ix2 p l)) + f (ix2 p l)) = _
  rw [Ideal.ofBits_zero_f32, zero_sub, formVec_apply]
  rfl

/-- Row `p` of the update is one step of row `p`. -/
theorem row_stepVec (s : BitVec 32) (tv f : FVec Ideal S4096x128 .f32) (u : FVec Ideal S128x32 .bf16)
    (w : FVec Ideal S32x128 .bf16) (p : Fin 4096) :
    row (stepVec s tv f u w) p = Rows.step (Ideal.ofBits .f32 s) (mat u) (mat w) (row f p) (row tv p) :=
  funext fun l => stepVec_apply s tv f u w p l

/-! ## The stored values -/

theorem pay8_eq (v2 v4 : Vec Ideal S4096x128 .f32) (v6 : Vec Ideal S128x32 .bf16) (v8 : Vec Ideal S32x128 .bf16) :
    k0_pay8 (F := Ideal) v2 v4 v6 v8 = stepVec 0x3C5D61BD#32 v2 v4 v6 v8 := by
  unfold k0_pay8 k0_pay4 k0_pay5 k0_pay6 k0_pay7
  simp only [shapeCast_self]
  rfl

theorem pay9_eq (v2 v4 : Vec Ideal S4096x128 .f32) (v6 : Vec Ideal S128x32 .bf16) (v8 : Vec Ideal S32x128 .bf16) :
    k0_pay9 (F := Ideal) v2 v4 v6 v8 = stepVec 0xBC8B7638#32 (stepVec 0x3C5D61BD#32 v2 v4 v6 v8) v4 v6 v8 := by
  unfold k0_pay9
  rw [pay8_eq]
  unfold k0_pay5 k0_pay6 k0_pay7
  simp only [shapeCast_self]
  rfl

/-- The second stored value (window 6) is three velocity updates of the block. -/
theorem pay1_eq (v2 v4 : Vec Ideal S4096x128 .f32) (v6 : Vec Ideal S128x32 .bf16) (v8 : Vec Ideal S32x128 .bf16) :
    k0_pay1 (F := Ideal) (k0_pay5 v4) (k0_pay9 v2 v4 v6 v8) (k0_pay10 v2 v4 v6 v8) (k0_pay11 (F := Ideal))
      = stepVec 0x3C5D61BD#32 (stepVec 0xBC8B7638#32 (stepVec 0x3C5D61BD#32 v2 v4 v6 v8) v4 v6 v8) v4 v6 v8 := by
  unfold k0_pay1 k0_pay10 k0_pay11
  rw [pay9_eq]
  unfold k0_pay5 k0_pay6 k0_pay7
  simp only [shapeCast_self]
  rfl

/-- The second stored value at row `p`, lane `l`: the final velocity of row `p`. -/
theorem vel_apply (v2 v4 : Vec Ideal S4096x128 .f32) (v6 : Vec Ideal S128x32 .bf16) (v8 : Vec Ideal S32x128 .bf16)
    (p : Fin 4096) (l : Fin 128) :
    k0_pay1 (F := Ideal) (k0_pay5 v4) (k0_pay9 v2 v4 v6 v8) (k0_pay10 v2 v4 v6 v8) (k0_pay11 (F := Ideal)) (ix2 p l)
      = Rows.vel3 s₁ s₂ (mat v6) (mat v8) (row v4 p) (row v2 p) l := by
  rw [pay1_eq, stepVec_apply, row_stepVec, row_stepVec]
  rfl

/-- The weighted sum the body stores first: `x + (((c₁ v + c₂ v₁) + c₂ v₂) + c₁ v₃)`, as it spells it. -/
def posVec (x v v₁ v₂ v₃ : FVec Ideal S4096x128 .f32) : FVec Ideal S4096x128 .f32 :=
  addf x (addf (addf (addf
      (mulf (broadcast S4096x128 (Scalar.ofBits (F := Ideal) .f32 0x3BDD61BD#32)) v)
      (mulf (broadcast S4096x128 (Scalar.ofBits (F := Ideal) .f32 0xBAE62ACA#32)) v₁))
      (mulf (broadcast S4096x128 (Scalar.ofBits (F := Ideal) .f32 0xBAE62ACA#32)) v₂))
      (mulf (broadcast S4096x128 (Scalar.ofBits (F := Ideal) .f32 0x3BDD61BD#32)) v₃))

theorem posVec_apply (x v v₁ v₂ v₃ : FVec Ideal S4096x128 .f32) (i : S4096x128.Idx) :
    posVec x v v₁ v₂ v₃ i = x i + (((c₁ * v i + c₂ * v₁ i) + c₂ * v₂ i) + c₁ * v₃ i) := rfl

theorem pay2_eq (v0 v2 v4 : Vec Ideal S4096x128 .f32) (v6 : Vec Ideal S128x32 .bf16) (v8 : Vec Ideal S32x128 .bf16) :
    k0_pay2 (F := Ideal) (k0_pay3 v0) (k0_pay4 v2) (k0_pay5 v4) (k0_pay8 v2 v4 v6 v8) (k0_pay9 v2 v4 v6 v8)
        (k0_pay10 v2 v4 v6 v8) (k0_pay11 (F := Ideal))
      = posVec v0 v2 (k0_pay8 v2 v4 v6 v8) (k0_pay9 v2 v4 v6 v8)
          (k0_pay1 (F := Ideal) (k0_pay5 v4) (k0_pay9 v2 v4 v6 v8) (k0_pay10 v2 v4 v6 v8) (k0_pay11 (F := Ideal))) := by
  unfold k0_pay2 k0_pay3 k0_pay4
  simp only [shapeCast_self]
  rfl

/-- The first stored value (window 5) at row `p`, lane `l`: the final position of row `p`. -/
theorem pos_apply (v0 v2 v4 : Vec Ideal S4096x128 .f32) (v6 : Vec Ideal S128x32 .bf16) (v8 : Vec Ideal S32x128 .bf16)
    (p : Fin 4096) (l : Fin 128) :
    k0_pay2 (F := Ideal) (k0_pay3 v0) (k0_pay4 v2) (k0_pay5 v4) (k0_pay8 v2 v4 v6 v8) (k0_pay9 v2 v4 v6 v8)
        (k0_pay10 v2 v4 v6 v8) (k0_pay11 (F := Ideal)) (ix2 p l)
      = Rows.pos c₁ c₂ s₁ s₂ (mat v6) (mat v8) (row v4 p) (row v0 p) (row v2 p) l := by
  have h8 := stepVec_apply 0x3C5D61BD#32 v2 v4 v6 v8 p l
  have h9 := stepVec_apply 0xBC8B7638#32 (stepVec 0x3C5D61BD#32 v2 v4 v6 v8) v4 v6 v8 p l
  have h1 := vel_apply v2 v4 v6 v8 p l
  rw [row_stepVec] at h9
  rw [pay2_eq, posVec_apply, h1, pay8_eq, pay9_eq, h8, h9]
  exact Rows.pos_gathered c₁ c₂ s₁ s₂ (mat v6) (mat v8) (row v4 p) (row v0 p) (row v2 p) l

end Cert.KernelBody

end
-- ==== Proof.KernelHost.lean ====
/-
  What the kernel's call is handed.

  Before the call the host re-reads each of the three big arrays as 524288 rows of width 128 — the row-major positions
  do not move, so wide row `P` is narrow rows `2 P` and `2 P + 1` side by side — and builds the two small operands by
  concatenation with zero blocks: `U` twice on the diagonal of a 128 × 32 matrix, `W` twice on the diagonal of a
  32 × 128 matrix (the change of float format afterwards is the identity at the ideal values).
-/
import proofs.«423635_j2370821948213_3_alg».proof.Proof.Gen.KernelIdeal.Frame
import proofs.«423635_j2370821948213_3_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelHost

open Cert.KernelIdeal Cert.KernelIdeal.Gen Idealize.ShloMosaic Idealize.ShloMosaic.TcCoe Idealize.SL.Sem
open Idealize.ShloMosaic.StableHlo Idealize.ShloMosaic.ValueIdx Cert.Spec

/-! ## The packed arrays -/

/-- A 1048576 × 64 array re-read as 524288 × 128. -/
def packed (A : FVec Ideal S1048576x64 .f32) : FVec Ideal S524288x128 .f32 :=
  shapeCast S524288x128 A shapeCasts_S1048576x64_S524288x128

/-- Half `b` of wide row `P` is narrow row `2 P + b`. -/
theorem half_row_packed (A : FVec Ideal S1048576x64 .f32) (P : Fin 524288) (b : Fin 2) :
    Rows.half b (row (packed A) P) = row A ⟨2 * P.val + b.val, by have := P.isLt; have := b.isLt; omega⟩ := by
  funext j
  show packed A (ix2 P (Rows.lane b j)) = A (ix2 ⟨2 * P.val + b.val, _⟩ j)
  unfold packed
  refine shapeCast_apply A _ _ _ ?_
  rw [Shape.rowMajor_val_two, Shape.rowMajor_val_two]
  show (2 * P.val + b.val) * 64 + j.val = P.val * 128 + (64 * b.val + j.val)
  omega

/-! ## Two-piece concatenations at an index -/

section Concat
variable {α : Type}

theorem cat_S64x32 (A B : S64x16.Idx → α) (l : Fin 64) (c : Fin 32) :
    concatenate S64x32 1 [⟨S64x16, A⟩, ⟨S64x16, B⟩] concatenates_S64x16_S64x16_S64x32_d1 (ix2 l c)
      = if h : c.val < 16 then A (ix2 l ⟨c.val, h⟩) else B (ix2 l ⟨c.val - 16, by have := c.isLt; omega⟩) := by
  split
  · rename_i h
    exact concatenate_pair_apply_left (1 : Fin S64x32.rank) A B _ (ix2 l c) rfl (ix2 l ⟨c.val, h⟩)
      (fun b => by match b with | ⟨0, _⟩ => rfl | ⟨1, _⟩ => rfl)
  · rename_i h
    exact concatenate_pair_apply_right (1 : Fin S64x32.rank) A B _ (ix2 l c) rfl rfl (ix2 l ⟨c.val - 16, by have := c.isLt; omega⟩)
      (fun b hb => by match b, hb with | ⟨0, _⟩, _ => rfl | ⟨1, _⟩, hb => exact absurd rfl hb)
      (by show (c.val - 16) + 16 = c.val; omega)

theorem cat_S128x32 (A B : S64x32.Idx → α) (l : Fin 128) (c : Fin 32) :
    concatenate S128x32 0 [⟨S64x32, A⟩, ⟨S64x32, B⟩] concatenates_S64x32_S64x32_S128x32_d0 (ix2 l c)
      = if h : l.val < 64 then A (ix2 ⟨l.val, h⟩ c) else B (ix2 ⟨l.val - 64, by have := l.isLt; omega⟩ c) := by
  split
  · rename_i h
    exact concatenate_pair_apply_left (0 : Fin S128x32.rank) A B _ (ix2 l c) rfl (ix2 ⟨l.val, h⟩ c)
      (fun b => by match b with | ⟨0, _⟩ => rfl | ⟨1, _⟩ => rfl)
  · rename_i h
    exact concatenate_pair_apply_right (0 : Fin S128x32.rank) A B _ (ix2 l c) rfl rfl (ix2 ⟨l.val - 64, by have := l.isLt; omega⟩ c)
      (fun b hb => by match b, hb with | ⟨0, _⟩, hb => exact absurd rfl hb | ⟨1, _⟩, _ => rfl)
      (by show (l.val - 64) + 64 = l.val; omega)

theorem cat_S16x128 (A B : S16x64.Idx → α) (c : Fin 16) (l : Fin 128) :
    concatenate S16x128 1 [⟨S16x64, A⟩, ⟨S16x64, B⟩] concatenates_S16x64_S16x64_S16x128_d1 (ix2 c l)
      = if h : l.val < 64 then A (ix2 c ⟨l.val, h⟩) else B (ix2 c ⟨l.val - 64, by have := l.isLt; omega⟩) := by
  split
  · rename_i h
    exact concatenate_pair_apply_left (1 : Fin S16x128.rank) A B _ (ix2 c l) rfl (ix2 c ⟨l.val, h⟩)
      (fun b => by match b with | ⟨0, _⟩ => rfl | ⟨1, _⟩ => rfl)
  · rename_i h
    exact concatenate_pair_apply_right (1 : Fin S16x128.rank) A B _ (ix2 c l) rfl rfl (ix2 c ⟨l.val - 64, by have := l.isLt; omega⟩)
      (fun b hb => by match b, hb with | ⟨0, _⟩, _ => rfl | ⟨1, _⟩, hb => exact absurd rfl hb)
      (by show (l.val - 64) + 64 = l.val; omega)

theorem cat_S32x128 (A B : S16x128.Idx → α) (c : Fin 32) (l : Fin 128) :
    concatenate S32x128 0 [⟨S16x128, A⟩, ⟨S16x128, B⟩] concatenates_S16x128_S16x128_S32x128_d0 (ix2 c l)
      = if h : c.val < 16 then A (ix2 ⟨c.val, h⟩ l) else B (ix2 ⟨c.val - 16, by have := c.isLt; omega⟩ l) := by
  split
  · rename_i h
    exact concatenate_pair_apply_left (0 : Fin S32x128.rank) A B _ (ix2 c l) rfl (ix2 ⟨c.val, h⟩ l)
      (fun b => by match b with | ⟨0, _⟩ => rfl | ⟨1, _⟩ => rfl)
  · rename_i h
    exact concatenate_pair_apply_right (0 : Fin S32x128.rank) A B _ (ix2 c l) rfl rfl (ix2 ⟨c.val - 16, by have := c.isLt; omega⟩ l)
      (fun b hb => by match b, hb with | ⟨0, _⟩, hb => exact absurd rfl hb | ⟨1, _⟩, _ => rfl)
      (by show (c.val - 16) + 16 = c.val; omega)

end Concat

/-! ## The two small operands -/

theorem zerosU_apply (i : S64x16.Idx) :
    broadcastInDim S64x16 ![] bcast_S_S64x16 (constant (F := Ideal) S_ .f32 0x00000000#32) i = 0 := by
  rw [broadcastInDim_apply _ bcast_S_S64x16 _ i (fun a => a.elim0) (fun a => a.elim0)]
  exact Ideal.ofBits_zero_f32

theorem zerosW_apply (i : S16x64.Idx) :
    broadcastInDim S16x64 ![] bcast_S_S16x64 (constant (F := Ideal) S_ .f32 0x00000000#32) i = 0 := by
  rw [broadcastInDim_apply _ bcast_S_S16x64 _ i (fun a => a.elim0) (fun a => a.elim0)]
  exact Ideal.ofBits_zero_f32

/-- The first small operand as the host builds it from `U`. -/
def U2arr (Uarr : FVec Ideal S64x16 .f32) : FVec Ideal S128x32 .bf16 :=
  truncf .bf16 (concatenate S128x32 0
    [⟨S64x32, concatenate S64x32 1 [⟨S64x16, Uarr⟩,
        ⟨S64x16, broadcastInDim S64x16 ![] bcast_S_S64x16 (constant (F := Ideal) S_ .f32 0x00000000#32)⟩]
        concatenates_S64x16_S64x16_S64x32_d1⟩,
      ⟨S64x32, concatenate S64x32 1 [⟨S64x16, broadcastInDim S64x16 ![] bcast_S_S64x16 (constant (F := Ideal) S_ .f32 0x00000000#32)⟩,
        ⟨S64x16, Uarr⟩] concatenates_S64x16_S64x16_S64x32_d1⟩]
    concatenates_S64x32_S64x32_S128x32_d0) bitsLt_bf16_f32

/-- As a matrix it is `U` twice on the diagonal. -/
theorem mat_U2arr (Uarr : FVec Ideal S64x16 .f32) : mat (U2arr Uarr) = Rows.diagU (mat Uarr) := by
  funext l c
  have hl := l.isLt; have hc := c.isLt
  show U2arr Uarr (ix2 l c) = _
  unfold U2arr
  rw [truncf_apply, cat_S128x32]
  unfold Rows.diagU
  split <;> rename_i h1 <;> rw [cat_S64x32] <;> split <;> rename_i h2
  · rw [if_pos (by omega)]
    show Uarr _ = Uarr _
    congr 1
    funext a; apply Fin.ext
    match a with
    | ⟨0, _⟩ => show l.val = l.val % 64; omega
    | ⟨1, _⟩ => show c.val = c.val % 16; omega
  · rw [if_neg (by omega)]
    exact zerosU_apply _
  · rw [if_neg (by omega)]
    exact zerosU_apply _
  · rw [if_pos (by omega)]
    show Uarr _ = Uarr _
    congr 1
    funext a; apply Fin.ext
    match a with
    | ⟨0, _⟩ => show l.val - 64 = l.val % 64; omega
    | ⟨1, _⟩ => show c.val - 16 = c.val % 16; omega

/-- The second small operand as the host builds it from `W`. -/
def W2arr (Warr : FVec Ideal S16x64 .f32) : FVec Ideal S32x128 .bf16 :=
  truncf .bf16 (concatenate S32x128 0
    [⟨S16x128, concatenate S16x128 1 [⟨S16x64, Warr⟩,
        ⟨S16x64, broadcastInDim S16x64 ![] bcast_S_S16x64 (constant (F := Ideal) S_ .f32 0x00000000#32)⟩]
        concatenates_S16x64_S16x64_S16x128_d1⟩,
      ⟨S16x128, concatenate S16x128 1 [⟨S16x64, broadcastInDim S16x64 ![] bcast_S_S16x64 (constant (F := Ideal) S_ .f32 0x00000000#32)⟩,
        ⟨S16x64, Warr⟩] concatenates_S16x64_S16x64_S16x128_d1⟩]
    concatenates_S16x128_S16x128_S32x128_d0) bitsLt_bf16_f32

/-- As a matrix it is `W` twice on the diagonal. -/
theorem mat_W2arr (Warr : FVec Ideal S16x64 .f32) : mat (W2arr Warr) = Rows.diagW (mat Warr) := by
  funext c l
  have hl := l.isLt; have hc := c.isLt
  show W2arr Warr (ix2 c l) = _
  unfold W2arr
  rw [truncf_apply, cat_S32x128]
  unfold Rows.diagW
  split <;> rename_i h1 <;> rw [cat_S16x128] <;> split <;> rename_i h2
  · rw [if_pos (by omega)]
    show Warr _ = Warr _
    congr 1
    funext a; apply Fin.ext
    match a with
    | ⟨0, _⟩ => show c.val = c.val % 16; omega
    | ⟨1, _⟩ => show l.val = l.val % 64; omega
  · rw [if_neg (by omega)]
    exact zerosW_apply _
  · rw [if_neg (by omega)]
    exact zerosW_apply _
  · rw [if_pos (by omega)]
    show Warr _ = Warr _
    congr 1
    funext a; apply Fin.ext
    match a with
    | ⟨0, _⟩ => show c.val - 16 = c.val % 16; omega
    | ⟨1, _⟩ => show l.val - 64 = l.val % 64; omega

/-! ## The arrays as the call finds them -/

variable (m : (ℓ : Loc nD τ sig) → Buf (Elt Ideal) ℓ)

theorem V_v0 (c : Dev nD) :
    (V m c main_v0 : FVec Ideal S524288x128 .f32) = packed (m ((c.tc : Thread nD τ).loc main_arg0)) := by
  show StableHlo.after hostOps0 (fun b => m (c, b)) (Proc.devRef .tc main_v0) = _
  after_results
  rfl

theorem V_v1 (c : Dev nD) :
    (V m c main_v1 : FVec Ideal S524288x128 .f32) = packed (m ((c.tc : Thread nD τ).loc main_arg1)) := by
  show StableHlo.after hostOps0 (fun b => m (c, b)) (Proc.devRef .tc main_v1) = _
  after_results
  rfl

theorem V_v2 (c : Dev nD) :
    (V m c main_v2 : FVec Ideal S524288x128 .f32) = packed (m ((c.tc : Thread nD τ).loc main_arg2)) := by
  show StableHlo.after hostOps0 (fun b => m (c, b)) (Proc.devRef .tc main_v2) = _
  after_results
  rfl

theorem V_v7 (c : Dev nD) :
    (V m c main_v7 : FVec Ideal S128x32 .bf16) = U2arr (m ((c.tc : Thread nD τ).loc main_arg3)) := by
  show StableHlo.after hostOps0 (fun b => m (c, b)) (Proc.devRef .tc main_v7) = _
  after_results
  rfl

theorem V_v12 (c : Dev nD) :
    (V m c main_v12 : FVec Ideal S32x128 .bf16) = W2arr (m ((c.tc : Thread nD τ).loc main_arg4)) := by
  show StableHlo.after hostOps0 (fun b => m (c, b)) (Proc.devRef .tc main_v12) = _
  after_results
  rfl

end Cert.KernelHost

end
-- ==== Proof.KernelArray.lean ====
/-
  The kernel's two results as whole arrays.

  Grid point `t` works on wide rows `4096 t … 4096 t + 4095`: the three big operands' blocks and the two results'
  blocks are those rows of their arrays, and the two small operands are staged whole.  So what point `t` writes back
  is block `t` of one function of the arrays — wide row `P` of the first result is the final position, and of the
  second the final velocity, of wide row `P` against the doubled matrices — and the 128 blocks tile the arrays.  After
  the call the host re-reads both results as 1048576 rows of width 64; narrow row `r` is half `r % 2` of wide row
  `r / 2`, and half by half the wide row's results are the narrow rows' (`Cert.Rows.half_pos`, `half_vel3`).
-/
import proofs.«423635_j2370821948213_3_alg».proof.Proof.Gen.KernelIdeal.Frame
import proofs.«423635_j2370821948213_3_alg».proof.Proof.KernelBody
import proofs.«423635_j2370821948213_3_alg».proof.Proof.KernelHost
import Idealize.ShloMosaic.Lib.Pipeline.Value

set_option maxRecDepth 16384

noncomputable section

namespace Cert.KernelArray

open Cert.KernelIdeal Cert.KernelIdeal.Gen Idealize.ShloMosaic Idealize.ShloMosaic.TcCoe Idealize.SL.Sem
open Idealize.ShloMosaic.StableHlo Idealize.ShloMosaic.ValueIdx Cert.Spec Cert.KernelBody Cert.KernelHost
open Idealize.ShloMosaic.Pipeline (Dat)

variable (m : (ℓ : Loc nD τ sig) → Buf (Elt Ideal) ℓ) (ρ : Dev nD → PrngReg)

/-! ## The arrays the call finds, by their literal types -/

abbrev xP (c : Dev nD) : FVec Ideal S524288x128 .f32 := V m c main_v0
abbrev vP (c : Dev nD) : FVec Ideal S524288x128 .f32 := V m c main_v1
abbrev fP (c : Dev nD) : FVec Ideal S524288x128 .f32 := V m c main_v2
abbrev uP (c : Dev nD) : FVec Ideal S128x32 .bf16 := V m c main_v7
abbrev wP (c : Dev nD) : FVec Ideal S32x128 .bf16 := V m c main_v12

/-- The first result, packed: wide row `I 0`'s final position at lane `I 1`. -/
def posP (c : Dev nD) : FVec Ideal S524288x128 .f32 := fun I =>
  Rows.pos c₁ c₂ s₁ s₂ (mat (uP m c)) (mat (wP m c)) (row (fP m c) (I 0)) (row (xP m c) (I 0)) (row (vP m c) (I 0)) (I 1)

/-- The second result, packed: wide row `I 0`'s final velocity at lane `I 1`. -/
def velP (c : Dev nD) : FVec Ideal S524288x128 .f32 := fun I =>
  Rows.vel3 s₁ s₂ (mat (uP m c)) (mat (wP m c)) (row (fP m c) (I 0)) (row (vP m c) (I 0)) (I 1)

/-! ## One point -/

theorem hz : (![0, 0] : Fin 2 → Nat) = fun _ => 0 := funext fun a => by fin_cases a <;> rfl

/-- The body's first stored value where the blocks' rows are rows of arrays `X`, `Vv`, `Ff` and the small operands
    are the matrices `Um`, `Wm`. -/
theorem pos_point (x0 x1 x2 : Vec Ideal S4096x128 .f32) (x3 : Vec Ideal S128x32 .bf16) (x4 : Vec Ideal S32x128 .bf16)
    (X Vv Ff : FVec Ideal S524288x128 .f32) (Um : Fin 128 → Fin 32 → EReal) (Wm : Fin 32 → Fin 128 → EReal)
    (y : S4096x128.Idx) (P : Fin 524288)
    (h0 : row x0 (y 0) = row X P) (h1 : row x1 (y 0) = row Vv P) (h2 : row x2 (y 0) = row Ff P)
    (h3 : mat x3 = Um) (h4 : mat x4 = Wm) :
    k0_pay2 (F := Ideal) (k0_pay3 x0) (k0_pay4 x1) (k0_pay5 x2) (k0_pay8 x1 x2 x3 x4) (k0_pay9 x1 x2 x3 x4)
        (k0_pay10 x1 x2 x3 x4) (k0_pay11 (F := Ideal)) y
      = Rows.pos c₁ c₂ s₁ s₂ Um Wm (row Ff P) (row X P) (row Vv P) (y 1) := by
  obtain ⟨p, l, rfl⟩ : ∃ (p : Fin 4096) (l : Fin 128), y = ix2 p l := ⟨y 0, y 1, eq_ix2 y⟩
  rw [pos_apply]
  rw [← h0, ← h1, ← h2, ← h3, ← h4]

/-- The body's second stored value, the same way. -/
theorem vel_point (x1 x2 : Vec Ideal S4096x128 .f32) (x3 : Vec Ideal S128x32 .bf16) (x4 : Vec Ideal S32x128 .bf16)
    (Vv Ff : FVec Ideal S524288x128 .f32) (Um : Fin 128 → Fin 32 → EReal) (Wm : Fin 32 → Fin 128 → EReal)
    (y : S4096x128.Idx) (P : Fin 524288)
    (h1 : row x1 (y 0) = row Vv P) (h2 : row x2 (y 0) = row Ff P)
    (h3 : mat x3 = Um) (h4 : mat x4 = Wm) :
    k0_pay1 (F := Ideal) (k0_pay5 x2) (k0_pay9 x1 x2 x3 x4) (k0_pay10 x1 x2 x3 x4) (k0_pay11 (F := Ideal)) y
      = Rows.vel3 s₁ s₂ Um Wm (row Ff P) (row Vv P) (y 1) := by
  obtain ⟨p, l, rfl⟩ : ∃ (p : Fin 4096) (l : Fin 128), y = ix2 p l := ⟨y 0, y 1, eq_ix2 y⟩
  rw [vel_apply]
  rw [← h1, ← h2, ← h3, ← h4]

/-! ## The blocks -/

/-- The printed index maps over the grid: the three big operands and the two results move one block of rows per point,
    the two small operands stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The wide row of the arrays that row `p` of point `t`'s blocks is. -/
def rowOf (t : Fin cfg0.N) (p : Fin 4096) : Fin 524288 :=
  ⟨4096 * t.val + p.val, by have := t.isLt; have := p.isLt; have h : cfg0.N = 128 := N_0; omega⟩

theorem rowOf_val (t : Fin cfg0.N) (p : Fin 4096) : (rowOf t p).val = 4096 * t.val + p.val := rfl

theorem row_blk0 (c : Dev nD) (t : Fin cfg0.N) (p : Fin 4096) :
    row (R := 4096) (C := 128) (iblk m c 0 t) p = row (xP m c) (rowOf t p) := by
  obtain ⟨e00, e01, -⟩ := idx_facts t
  funext d
  show V m c main_v0 (((cfg0.win 0).blk t).view.emb (ix2 p d)) = V m c main_v0 (ix2 (rowOf t p) d)
  congr 1
  funext a; apply Fin.ext
  match a with
  | ⟨0, _⟩ => show win0_0.index t (0 : Fin 2) * 4096 + 1 * p.val = 4096 * t.val + p.val; omega
  | ⟨1, _⟩ => show win0_0.index t (1 : Fin 2) * 128 + 1 * d.val = d.val; omega

theorem row_blk1 (c : Dev nD) (t : Fin cfg0.N) (p : Fin 4096) :
    row (R := 4096) (C := 128) (iblk m c 1 t) p = row (vP m c) (rowOf t p) := by
  obtain ⟨-, -, e10, e11, -⟩ := idx_facts t
  funext d
  show V m c main_v1 (((cfg0.win 1).blk t).view.emb (ix2 p d)) = V m c main_v1 (ix2 (rowOf t p) d)
  congr 1
  funext a; apply Fin.ext
  match a with
  | ⟨0, _⟩ => show win0_1.index t (0 : Fin 2) * 4096 + 1 * p.val = 4096 * t.val + p.val; omega
  | ⟨1, _⟩ => show win0_1.index t (1 : Fin 2) * 128 + 1 * d.val = d.val; omega

theorem row_blk2 (c : Dev nD) (t : Fin cfg0.N) (p : Fin 4096) :
    row (R := 4096) (C := 128) (iblk m c 2 t) p = row (fP m c) (rowOf t p) := by
  obtain ⟨-, -, -, -, e20, e21, -⟩ := idx_facts t
  funext d
  show V m c main_v2 (((cfg0.win 2).blk t).view.emb (ix2 p d)) = V m c main_v2 (ix2 (rowOf t p) d)
  congr 1
  funext a; apply Fin.ext
  match a with
  | ⟨0, _⟩ => show win0_2.index t (0 : Fin 2) * 4096 + 1 * p.val = 4096 * t.val + p.val; omega
  | ⟨1, _⟩ => show win0_2.index t (1 : Fin 2) * 128 + 1 * d.val = d.val; omega

theorem mat_blk3 (c : Dev nD) (t : Fin cfg0.N) :
    mat (R := 128) (C := 32) (iblk m c 3 t) = mat (uP m c) := by
  obtain ⟨-, -, -, -, -, -, e30, e31, -⟩ := idx_facts t
  funext a b
  show V m c main_v7 (((cfg0.win 3).blk t).view.emb (ix2 a b)) = V m c main_v7 (ix2 a b)
  congr 1
  funext ax; apply Fin.ext
  match ax with
  | ⟨0, _⟩ => show win0_3.index t (0 : Fin 2) * 128 + 1 * a.val = a.val; omega
  | ⟨1, _⟩ => show win0_3.index t (1 : Fin 2) * 32 + 1 * b.val = b.val; omega

theorem mat_blk4 (c : Dev nD) (t : Fin cfg0.N) :
    mat (R := 32) (C := 128) (iblk m c 4 t) = mat (wP m c) := by
  obtain ⟨-, -, -, -, -, -, -, -, e40, e41, -⟩ := idx_facts t
  funext a b
  show V m c main_v12 (((cfg0.win 4).blk t).view.emb (ix2 a b)) = V m c main_v12 (ix2 a b)
  congr 1
  funext ax; apply Fin.ext
  match ax with
  | ⟨0, _⟩ => show win0_4.index t (0 : Fin 2) * 32 + 1 * a.val = a.val; omega
  | ⟨1, _⟩ => show win0_4.index t (1 : Fin 2) * 128 + 1 * b.val = b.val; omega

/-- Where the first result's block at point `t` lies in its array. -/
theorem emb5 (t : Fin cfg0.N) (j : S4096x128.Idx) :
    ((cfg0.win 5).blk t).view.emb j = ix2 (rowOf t (j 0)) (j 1) := by
  obtain ⟨-, -, -, -, -, -, -, -, -, -, e50, e51, -⟩ := idx_facts t
  funext a; apply Fin.ext
  match a with
  | ⟨0, _⟩ => show win0_5.index t (0 : Fin 2) * 4096 + 1 * (j 0).val = 4096 * t.val + (j 0).val; omega
  | ⟨1, _⟩ => show win0_5.index t (1 : Fin 2) * 128 + 1 * (j 1).val = (j 1).val; omega

/-- Where the second result's block at point `t` lies in its array. -/
theorem emb6 (t : Fin cfg0.N) (j : S4096x128.Idx) :
    ((cfg0.win 6).blk t).view.emb j = ix2 (rowOf t (j 0)) (j 1) := by
  obtain ⟨-, -, -, -, -, -, -, -, -, -, -, -, e60, e61⟩ := idx_facts t
  funext a; apply Fin.ext
  match a with
  | ⟨0, _⟩ => show win0_6.index t (0 : Fin 2) * 4096 + 1 * (j 0).val = 4096 * t.val + (j 0).val; omega
  | ⟨1, _⟩ => show win0_6.index t (1 : Fin 2) * 128 + 1 * (j 1).val = (j 1).val; omega

/-! ## What each point writes back -/

theorem flushed5_eq (c : Dev nD) (t : Fin cfg0.N) :
    (dats m 0 c).flushed 5 t = ((cfg0.win 5).blk t).view.read (Elt Ideal) (posP m c) := by
  show (cfg0.win 5).cut (grid0.coords t) ((dats m 0 c).after 5 t) = _
  rw [after0_5]
  unfold out0_5
  rw [View.canon_unit_zero hz]
  simp only [View.ld_unit_zero (S := S4096x128) hz, View.ld_unit_zero (S := S128x32) hz, View.ld_unit_zero (S := S32x128) hz]
  funext j
  show k0_pay2 (F := Ideal) (k0_pay3 (iblk m c 0 t)) (k0_pay4 (iblk m c 1 t)) (k0_pay5 (iblk m c 2 t))
      (k0_pay8 (iblk m c 1 t) (iblk m c 2 t) (iblk m c 3 t) (iblk m c 4 t))
      (k0_pay9 (iblk m c 1 t) (iblk m c 2 t) (iblk m c 3 t) (iblk m c 4 t))
      (k0_pay10 (iblk m c 1 t) (iblk m c 2 t) (iblk m c 3 t) (iblk m c 4 t)) (k0_pay11 (F := Ideal)) j
    = posP m c (((cfg0.win 5).blk t).view.emb j)
  rw [emb5]
  exact pos_point (iblk m c 0 t) (iblk m c 1 t) (iblk m c 2 t) (iblk m c 3 t) (iblk m c 4 t)
    (xP m c) (vP m c) (fP m c) (mat (uP m c)) (mat (wP m c)) j (rowOf t (j 0))
    (row_blk0 m c t (j 0)) (row_blk1 m c t (j 0)) (row_blk2 m c t (j 0)) (mat_blk3 m c t) (mat_blk4 m c t)

theorem flushed6_eq (c : Dev nD) (t : Fin cfg0.N) :
    (dats m 0 c).flushed 6 t = ((cfg0.win 6).blk t).view.read (Elt Ideal) (velP m c) := by
  show (cfg0.win 6).cut (grid0.coords t) ((dats m 0 c).after 6 t) = _
  rw [after0_6]
  unfold out0_6
  rw [View.canon_unit_zero hz]
  simp only [View.ld_unit_zero (S := S4096x128) hz, View.ld_unit_zero (S := S128x32) hz, View.ld_unit_zero (S := S32x128) hz]
  funext j
  show k0_pay1 (F := Ideal) (k0_pay5 (iblk m c 2 t))
      (k0_pay9 (iblk m c 1 t) (iblk m c 2 t) (iblk m c 3 t) (iblk m c 4 t))
      (k0_pay10 (iblk m c 1 t) (iblk m c 2 t) (iblk m c 3 t) (iblk m c 4 t)) (k0_pay11 (F := Ideal)) j
    = velP m c (((cfg0.win 6).blk t).view.emb j)
  rw [emb6]
  exact vel_point (iblk m c 1 t) (iblk m c 2 t) (iblk m c 3 t) (iblk m c 4 t)
    (vP m c) (fP m c) (mat (uP m c)) (mat (wP m c)) j (rowOf t (j 0))
    (row_blk1 m c t (j 0)) (row_blk2 m c t (j 0)) (mat_blk3 m c t) (mat_blk4 m c t)

/-! ## The blocks tile the arrays -/

theorem mem_blk5 (t : Fin cfg0.N) (i : S524288x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v13_0).slice (win0_5.rect t)).set ↔ _
  rw [View.set_slice_whole, Rect.mem_set_unit]
  exact Iff.rfl

theorem mem_blk6 (t : Fin cfg0.N) (i : S524288x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v13_1).slice (win0_6.rect t)).set ↔ _
  rw [View.set_slice_whole, Rect.mem_set_unit]
  exact Iff.rfl

/-- The point whose blocks hold wide row `r`. -/
def pointOf (r : Fin 524288) : Fin cfg0.N :=
  ⟨r.val / 4096, by have := r.isLt; have h : cfg0.N = 128 := N_0; omega⟩

theorem pointOf_val (r : Fin 524288) : (pointOf r).val = r.val / 4096 := rfl

theorem cover5 (i : S524288x128.Idx) :
    ∃ t : Fin cfg0.N, (cfg0.win 5).flush t = true ∧ i ∈ ((cfg0.win 5).blk t).view.set := by
  refine ⟨pointOf (i 0), flush0_5 _, ?_⟩
  obtain ⟨-, -, -, -, -, -, -, -, -, -, e50, e51, -⟩ := idx_facts (pointOf (i 0))
  have hv := pointOf_val (i 0)
  have h0 : (i 0).val < 524288 := (i 0).isLt; have h1 : (i 1).val < 128 := (i 1).isLt
  rw [mem_blk5]
  intro a
  match a with
  | ⟨0, _⟩ => show win0_5.index (pointOf (i 0)) (0 : Fin 2) * 4096 ≤ (i 0).val ∧ (i 0).val < win0_5.index (pointOf (i 0)) (0 : Fin 2) * 4096 + 4096; omega
  | ⟨1, _⟩ => show win0_5.index (pointOf (i 0)) (1 : Fin 2) * 128 ≤ (i 1).val ∧ (i 1).val < win0_5.index (pointOf (i 0)) (1 : Fin 2) * 128 + 128; omega

theorem cover6 (i : S524288x128.Idx) :
    ∃ t : Fin cfg0.N, (cfg0.win 6).flush t = true ∧ i ∈ ((cfg0.win 6).blk t).view.set := by
  refine ⟨pointOf (i 0), flush0_6 _, ?_⟩
  obtain ⟨-, -, -, -, -, -, -, -, -, -, -, -, e60, e61⟩ := idx_facts (pointOf (i 0))
  have hv := pointOf_val (i 0)
  have h0 : (i 0).val < 524288 := (i 0).isLt; have h1 : (i 1).val < 128 := (i 1).isLt
  rw [mem_blk6]
  intro a
  match a with
  | ⟨0, _⟩ => show win0_6.index (pointOf (i 0)) (0 : Fin 2) * 4096 ≤ (i 0).val ∧ (i 0).val < win0_6.index (pointOf (i 0)) (0 : Fin 2) * 4096 + 4096; omega
  | ⟨1, _⟩ => show win0_6.index (pointOf (i 0)) (1 : Fin 2) * 128 ≤ (i 1).val ∧ (i 1).val < win0_6.index (pointOf (i 0)) (1 : Fin 2) * 128 + 128; omega

/-- The first result's array after the call. -/
theorem final5 (c : Dev nD) : (dats m 0 c).arrAt 5 cfg0.N = posP m c :=
  (dats m 0 c).arrAt_eq_of_cover 5 (posP m c) (fun t _ => flushed5_eq m c t) cover5

/-- The second result's array after the call. -/
theorem final6 (c : Dev nD) : (dats m 0 c).arrAt 6 cfg0.N = velP m c :=
  (dats m 0 c).arrAt_eq_of_cover 6 (velP m c) (fun t _ => flushed6_eq m c t) cover6

end Cert.KernelArray

end
-- ==== Proof.KernelResult.lean ====
/-
  The kernel's run: both results are the row-wise specification.

  After the call the host re-reads each packed result as 1048576 rows of width 64: narrow row `r` is half `r % 2`
  of wide row `r / 2`.  The packed results are the wide rows' final position and velocity against the doubled
  matrices, the packed inputs' wide row `P` has narrow rows `2 P` and `2 P + 1` as its halves, and half by half a
  wide row's results are its narrow rows' results; so narrow row `r` of each result is the specification's row `r`.
-/
import proofs.«423635_j2370821948213_3_alg».proof.Proof.KernelArray
import Idealize.ShloMosaic.Lib.StableHlo.Run

set_option maxRecDepth 16384

noncomputable section

namespace Cert.KernelResult

open Cert.KernelIdeal Cert.KernelIdeal.Gen Idealize.ShloMosaic Idealize.ShloMosaic.TcCoe Idealize.SL.Sem
open Idealize.ShloMosaic.StableHlo Idealize.ShloMosaic.ValueIdx Cert.Spec Cert.KernelHost Cert.KernelArray

variable (m : (ℓ : Loc nD τ sig) → Buf (Elt Ideal) ℓ) (ρ : Dev nD → PrngReg)

/-- A 524288 × 128 array re-read as 1048576 × 64. -/
def unpacked (A : FVec Ideal S524288x128 .f32) : FVec Ideal S1048576x64 .f32 :=
  shapeCast S1048576x64 A shapeCasts_S524288x128_S1048576x64

/-- The wide row that holds narrow row `r`, and which half of it. -/
def wideOf (r : Fin 1048576) : Fin 524288 := ⟨r.val / 2, by have := r.isLt; omega⟩
def halfOf (r : Fin 1048576) : Fin 2 := ⟨r.val % 2, by omega⟩

theorem unpacked_apply (A : FVec Ideal S524288x128 .f32) (r : Fin 1048576) (d : Fin 64) :
    unpacked A (ix2 r d) = A (ix2 (wideOf r) (Rows.lane (halfOf r) d)) := by
  unfold unpacked
  refine shapeCast_apply A _ _ _ ?_
  rw [Shape.rowMajor_val_two, Shape.rowMajor_val_two]
  show (r.val / 2) * 128 + (64 * (r.val % 2) + d.val) = r.val * 64 + d.val
  omega

/-- The halves of the packed inputs' wide row that holds `r` are the inputs' narrow row `r`. -/
theorem half_packed (A : FVec Ideal S1048576x64 .f32) (r : Fin 1048576) :
    Rows.half (halfOf r) (row (packed A) (wideOf r)) = row A r := by
  rw [half_row_packed]
  congr 1
  exact Fin.ext (by show 2 * (r.val / 2) + r.val % 2 = r.val; omega)

/-! ## The host lines after the call -/

theorem tail_v14 (c : Dev nD) :
    (Pipeline.afterTail₀ cfgs (dats m) 0 (V0 m) [hostOps1] c main_v14 : FVec Ideal S1048576x64 .f32)
      = unpacked (posP m c) := by
  unfold Pipeline.afterTail₀
  show StableHlo.after hostOps1 _ (Proc.devRef .tc main_v14) = _
  after_results
  have hA := (Pipeline.withArrays_arr spec0 launch0.win.arr_inj c (V0 m c) (fun w => (dats m 0 c).arrAt w cfg0.N) 5).trans
    (final5 m c)
  exact congrArg (fun A : FVec Ideal S524288x128 .f32 => shapeCast S1048576x64 A shapeCasts_S524288x128_S1048576x64) hA

theorem tail_v15 (c : Dev nD) :
    (Pipeline.afterTail₀ cfgs (dats m) 0 (V0 m) [hostOps1] c main_v15 : FVec Ideal S1048576x64 .f32)
      = unpacked (velP m c) := by
  unfold Pipeline.afterTail₀
  show StableHlo.after hostOps1 _ (Proc.devRef .tc main_v15) = _
  after_results
  have hA := (Pipeline.withArrays_arr spec0 launch0.win.arr_inj c (V0 m c) (fun w => (dats m 0 c).arrAt w cfg0.N) 6).trans
    (final6 m c)
  exact congrArg (fun A : FVec Ideal S524288x128 .f32 => shapeCast S1048576x64 A shapeCasts_S524288x128_S1048576x64) hA

/-! ## The two results -/

theorem mat_uP (c : Dev nD) : mat (uP m c) = Rows.diagU (mat (R := 64) (C := 16) (m ((c.tc : Thread nD τ).loc main_arg3))) := by
  show mat (V m c main_v7 : FVec Ideal S128x32 .bf16) = _
  rw [V_v7]
  exact mat_U2arr _

theorem mat_wP (c : Dev nD) : mat (wP m c) = Rows.diagW (mat (R := 16) (C := 64) (m ((c.tc : Thread nD τ).loc main_arg4))) := by
  show mat (V m c main_v12 : FVec Ideal S32x128 .bf16) = _
  rw [V_v12]
  exact mat_W2arr _

theorem half_xP (c : Dev nD) (r : Fin 1048576) :
    Rows.half (halfOf r) (row (xP m c) (wideOf r)) = row (R := 1048576) (C := 64) (m ((c.tc : Thread nD τ).loc main_arg0)) r := by
  show Rows.half (halfOf r) (row (V m c main_v0 : FVec Ideal S524288x128 .f32) (wideOf r)) = _
  rw [V_v0]
  exact half_packed _ r

theorem half_vP (c : Dev nD) (r : Fin 1048576) :
    Rows.half (halfOf r) (row (vP m c) (wideOf r)) = row (R := 1048576) (C := 64) (m ((c.tc : Thread nD τ).loc main_arg1)) r := by
  show Rows.half (halfOf r) (row (V m c main_v1 : FVec Ideal S524288x128 .f32) (wideOf r)) = _
  rw [V_v1]
  exact half_packed _ r

theorem half_fP (c : Dev nD) (r : Fin 1048576) :
    Rows.half (halfOf r) (row (fP m c) (wideOf r)) = row (R := 1048576) (C := 64) (m ((c.tc : Thread nD τ).loc main_arg2)) r := by
  show Rows.half (halfOf r) (row (V m c main_v2 : FVec Ideal S524288x128 .f32) (wideOf r)) = _
  rw [V_v2]
  exact half_packed _ r

/-- The first result is the final position array. -/
theorem kernel_pos (c : Dev nD) :
    (Pipeline.afterTail₀ cfgs (dats m) 0 (V0 m) [hostOps1] c main_v14 : FVec Ideal S1048576x64 .f32)
      = posArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [tail_v14]
  funext i
  obtain ⟨r, d, rfl⟩ : ∃ (r : Fin 1048576) (d : Fin 64), i = ix2 r d := ⟨i 0, i 1, eq_ix2 i⟩
  rw [unpacked_apply]
  have h := congrFun (Rows.half_pos c₁ c₂ s₁ s₂ (mat (R := 64) (C := 16) (m ((c.tc : Thread nD τ).loc main_arg3)))
    (mat (R := 16) (C := 64) (m ((c.tc : Thread nD τ).loc main_arg4)))
    (row (fP m c) (wideOf r)) (row (xP m c) (wideOf r)) (row (vP m c) (wideOf r)) (halfOf r)) d
  rw [half_xP, half_vP, half_fP, ← mat_uP, ← mat_wP] at h
  exact h

/-- The second result is the final velocity array. -/
theorem kernel_vel (c : Dev nD) :
    (Pipeline.afterTail₀ cfgs (dats m) 0 (V0 m) [hostOps1] c main_v15 : FVec Ideal S1048576x64 .f32)
      = velArr (m ((c.tc : Thread nD τ).loc main_arg1))
          (m ((c.tc : Thread nD τ).loc main_arg2)) (m ((c.tc : Thread nD τ).loc main_arg3))
          (m ((c.tc : Thread nD τ).loc main_arg4)) := by
  rw [tail_v15]
  funext i
  obtain ⟨r, d, rfl⟩ : ∃ (r : Fin 1048576) (d : Fin 64), i = ix2 r d := ⟨i 0, i 1, eq_ix2 i⟩
  rw [unpacked_apply]
  have h := congrFun (Rows.half_vel3 s₁ s₂ (mat (R := 64) (C := 16) (m ((c.tc : Thread nD τ).loc main_arg3)))
    (mat (R := 16) (C := 64) (m ((c.tc : Thread nD τ).loc main_arg4)))
    (row (fP m c) (wideOf r)) (row (vP m c) (wideOf r)) (halfOf r)) d
  rw [half_vP, half_fP, ← mat_uP, ← mat_wP] at h
  exact h

/-! ## The run -/

/-- Every weakly fair execution of the kernel's program ends with its two results at the specification of the
    arguments, and the arguments unchanged. -/
theorem run : θ_run defs (onTc (τ := τ) (main (F := Ideal))) ⟨m, fun _ => 0, ρ⟩ fun r => ∀ c : Dev nD,
      r.2.mem ((c.tc : Thread nD τ).loc main_v14)
        = posArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_v15)
        = velArr (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans (kernel_pos m c),
      ((h c).2 main_v15 (Pipeline.mem_restRefs_of main_v15 (by decide) (by decide))).trans (kernel_vel m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelResult

end
-- ==== Proof.lean ====
/-
  The kernel and its reference compute one function over the extended reals.

  Both take three arrays of 1048576 rows of width 64 and two small matrices `U` (64 × 16) and `W` (16 × 64), and
  return a final position and a final velocity.  Each row evolves by itself: three velocity steps
  `a ↦ a + s (−((a U)² W) + force)`, and the position is `x` plus the four weighted velocities (`Cert.Rows`,
  `Cert.Spec`).  The reference computes exactly this, array by array (`Cert.RefValue`).  The kernel lays two
  consecutive rows side by side as one row of width 128, places `U` and `W` twice on the diagonals of a 128 × 32 and a
  32 × 128 matrix, runs the same steps on the wide rows in blocks of 4096, gathers the four velocity terms before adding
  `x`, and unpacks the results.  Since a product with a zero entry is zero for every extended real, the wide row's
  quadratic form splits into the two narrow rows' forms; addition is associative; and `0 − a = −a`: so the kernel's
  results are the same arrays (`Cert.KernelResult`).  No step uses the finiteness of the inputs.

  The three frames: the kernel's two programs by their generated frame certificates, the reference's by its run.
  `preserves` has nothing to state: the idealized kernel is the kernel's own text read at the ideal values.
-/
import proofs.«423635_j2370821948213_3_alg».proof.Defs
import proofs.«423635_j2370821948213_3_alg».proof.Proof.Gen.Kernel
import proofs.«423635_j2370821948213_3_alg».proof.Proof.Gen.Kernel.Skeleton
import proofs.«423635_j2370821948213_3_alg».proof.Proof.Gen.Kernel.Launch
import proofs.«423635_j2370821948213_3_alg».proof.Proof.Gen.Kernel.Points
import proofs.«423635_j2370821948213_3_alg».proof.Proof.Gen.Kernel.Frame
import proofs.«423635_j2370821948213_3_alg».proof.Proof.Gen.KernelIdeal
import proofs.«423635_j2370821948213_3_alg».proof.Proof.Gen.KernelIdeal.Skeleton
import proofs.«423635_j2370821948213_3_alg».proof.Proof.Gen.KernelIdeal.Launch
import proofs.«423635_j2370821948213_3_alg».proof.Proof.Gen.KernelIdeal.Points
import proofs.«423635_j2370821948213_3_alg».proof.Proof.Gen.KernelIdeal.Frame
import proofs.«423635_j2370821948213_3_alg».proof.Proof.Gen.ReferenceIdeal
import proofs.«423635_j2370821948213_3_alg».proof.Proof.Gen.ReferenceIdeal.Run
import proofs.«423635_j2370821948213_3_alg».proof.Proof.Gen.ReferenceIdeal.Read
import proofs.«423635_j2370821948213_3_alg».proof.Proof.Gen.Pre_finite_inputs
import proofs.«423635_j2370821948213_3_alg».proof.Proof.RefValue
import proofs.«423635_j2370821948213_3_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- From memories that agree on the five arguments both programs end with the specification's final position and
    final velocity of those arguments. -/
theorem algebraic : Cert.algebraic_KernelIdeal_ReferenceIdeal := by
  intro m ρ m' ρ' _ hagree
  refine ⟨_, _, Cert.KernelResult.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq, Cert.RefValue.pos_eq, (hagree c).1, (hagree c).2.1,
      (hagree c).2.2.1, (hagree c).2.2.2.1, (hagree c).2.2.2.2]
  · rw [Cert.ReferenceIdeal.Read.val_main_v32_eq, Cert.RefValue.vel_eq, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
